-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024x256 : Shape := ⟨3, ![32, 1024, 256]⟩
abbrev S256x256 : Shape := ⟨2, ![256, 256]⟩
abbrev S256 : Shape := ⟨1, ![256]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024x256 : S_.BroadcastsInDim S32x1024x256 (![] : Fin 0 → Fin S32x1024x256.rank)
  reducesTo_S32x1024x256_S_d0_1_2 : S32x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x1024x1024 .f32) (main_arg1 : FVec F S32x1024x256 .f32) (main_arg2 : FVec F S256x256 .f32) (main_arg3 : FVec F S256 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x1024x1024 : Shape := ⟨3, ![32, 1024, 1024]⟩
abbrev S32x1024x256 : Shape := ⟨3, ![32, 1024, 256]⟩
abbrev S256x256 : Shape := ⟨2, ![256, 256]⟩
abbrev S256 : Shape := ⟨1, ![256]⟩
abbrev S1x256x256 : Shape := ⟨3, ![1, 256, 256]⟩
abbrev S1x1024x256 : Shape := ⟨3, ![1, 1024, 256]⟩
abbrev S1024x256 : Shape := ⟨2, ![1024, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S32x1024x1024, .f32⟩
  | .hbm, ⟨1, _⟩ => ⟨S32x1024x256, .f32⟩
  | .hbm, ⟨2, _⟩ => ⟨S256x256, .f32⟩
  | .hbm, ⟨3, _⟩ => ⟨S256, .f32⟩
  | .hbm, ⟨4, _⟩ => ⟨S32x1024x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S1x1024x256, .f32⟩
  | .local _ .vmem, ⟨4, _⟩ => ⟨S1x1024x256, .f32⟩
  | .local _ .vmem, ⟨5, _⟩ => ⟨S256, .f32⟩
  | .local _ .vmem, ⟨6, _⟩ => ⟨S1x1024x256, .f32⟩
  | .local _ .vmem, ⟨7, _⟩ => ⟨S1x1024x256, .f32⟩
  | .local _ .vmem, ⟨8, _⟩ => ⟨S1024x256, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1x1024x256 : S1024x256.ShapeCasts S1x1024x256
  dot_S256x256_S256x256_S256x256_1_0_0_1_n_n_wf : DotDims.WF S256x256 S256x256 S256x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S32x1024x256.size a
  hwx0_0 : ∀ i : grid0.Coords, EltTy.bits .f32 = 32 ∨ (Rect.block (s := S32x1024x256) S1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S32x1024x1024.size a
  hwx0_2 : ∀ i : grid0.Coords, EltTy.bits .f32 = 32 ∨ (Rect.block (s := S32x1024x1024) S1x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S32x1024x256.size a
  hwx0_4 : ∀ i : grid0.Coords, EltTy.bits .f32 = 32 ∨ (Rect.block (s := S32x1024x256) S1x1024x256.size (cc0_transform_4 i) (hinb0_4 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x1024x1024 : Shape := ⟨3, ![32, 1024, 1024]⟩
abbrev S32x1024x256 : Shape := ⟨3, ![32, 1024, 256]⟩
abbrev S256x256 : Shape := ⟨2, ![256, 256]⟩
abbrev S256 : Shape := ⟨1, ![256]⟩
abbrev S1x1x256 : Shape := ⟨3, ![1, 1, 256]⟩

abbrev nBuf : Space → Nat
  | .hbm => 9
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x256, .f32⟩
  | .hbm, ⟨2, _⟩ => ⟨S256x256, .f32⟩
  | .hbm, ⟨3, _⟩ => ⟨S256, .f32⟩
  | .hbm, ⟨4, _⟩ => ⟨S32x1024x256, .f32⟩
  | .hbm, ⟨5, _⟩ => ⟨S32x1024x256, .f32⟩
  | .hbm, ⟨6, _⟩ => ⟨S1x1x256, .f32⟩
  | .hbm, ⟨7, _⟩ => ⟨S32x1024x256, .f32⟩
  | .hbm, ⟨8, _⟩ => ⟨S32x1024x256, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  dot_S32x1024x256_S256x256_S32x1024x256_2_0_01_1_n_n_wf : DotDims.WF S32x1024x256 S256x256 S32x1024x256 [2] [0] [0, 1] [1] [] []
  dot_S32x1024x1024_S32x1024x256_S32x1024x256_2_1_1_2_0_0_wf : DotDims.WF S32x1024x1024 S32x1024x256 S32x1024x256 [2] [1] [1] [2] [0] [0]

variable [Facts₀]

def dot_S32x1024x256_S256x256_S32x1024x256_2_0_01_1_n_n : DotDims S32x1024x256 S256x256 S32x1024x256 where
  lhsContracting := [2]
  rhsContracting := [0]
  lhsNonContracting := [0, 1]
  rhsNonContracting := [1]
  lhsBatch := []
  rhsBatch := []
  wf := dot_S32x1024x256_S256x256_S32x1024x256_2_0_01_1_n_n_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.Pieces.lean ====
/-
  What one grid point leaves behind, case by case, as the body's own arithmetic.

  The body keeps an accumulator of shape [1024, 256] in a scratch buffer. At every point it adds to it the product of the
  point's adjacency tile with the projected features of the tile's 256 source nodes (`k0_pay2`: accumulator + tile
  product). At a graph's first tile it stores the zero block first (`k0_pay1`) and reads that back, so the accumulator
  it adds to is zero; at a graph's last tile it also stores accumulator + bias into the output block (`k0_pay3`), reading
  the accumulator it has just updated. Each statement below says that the pieces a case's run stored, read back, are
  these terms of the point's input blocks and of what the point before left in the scratch.
-/
import proofs.«124375_j71811853189638_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every store and load of the body is of a whole buffer: its rectangle starts at the origin. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

variable (c : Dev nD) (i : grid0.Coords)
  (arg2 : Memref sig .tc .vmem S1x256x256 .f32) (harg2 : arg2.IsWhole)
  (arg3 : Memref sig .tc .vmem S256x256 .f32) (harg3 : arg3.IsWhole)
  (arg4 : Memref sig .tc .vmem S1x1024x256 .f32) (harg4 : arg4.IsWhole)
  (arg5 : Memref sig .tc .vmem S256 .f32) (harg5 : arg5.IsWhole)
  (arg6 : Memref sig .tc .vmem S1x1024x256 .f32) (harg6 : arg6.IsWhole)
  (arg7 : Memref sig .tc .vmem S1024x256 .f32) (harg7 : arg7.IsWhole)
  (x0 : Vec F S1x256x256 .f32) (x1 : Vec F S256x256 .f32) (x2 : Vec F S1x1024x256 .f32) (x3 : Vec F S256 .f32)

/-- A middle tile: the scratch holding `xs0` ends at `xs0` + the tile product. -/
theorem scratch_B (hc0 : ¬cond0_0 i) (hc1 : ¬cond0_1 i) (xs0 : Vec F S1024x256 .f32) :
    sout0_B_0 c i arg2 harg2 arg3 harg3 arg4 harg4 arg5 harg5 arg6 harg6 arg7 harg7 hc0 hc1 x0 x1 x2 x3 xs0 = k0_pay2 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg7.read_unread,
    View.ld_unit_zero (S := S1x256x256) hz3, View.ld_unit_zero (S := S256x256) hz2,
    View.ld_unit_zero (S := S1x1024x256) hz3, View.ld_unit_zero (S := S1024x256) hz2]

/-- A graph's last tile: the scratch ends the same way, -/
theorem scratch_C (hc0 : ¬cond0_0 i) (hc1 : cond0_1 i) (xs0 : Vec F S1024x256 .f32) :
    sout0_C_0 c i arg2 harg2 arg3 harg3 arg4 harg4 arg5 harg5 arg6 harg6 arg7 harg7 hc0 hc1 x0 x1 x2 x3 xs0 = k0_pay2 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg7.read_unread,
    View.ld_unit_zero (S := S1x256x256) hz3, View.ld_unit_zero (S := S256x256) hz2,
    View.ld_unit_zero (S := S1x1024x256) hz3, View.ld_unit_zero (S := S1024x256) hz2]

/-- and the output block is the updated accumulator + bias. -/
theorem out_C (hc0 : ¬cond0_0 i) (hc1 : cond0_1 i) (xs0 : Vec F S1024x256 .f32) :
    out0_C_4 c i arg2 harg2 arg3 harg3 arg4 harg4 arg5 harg5 arg6 harg6 arg7 harg7 hc0 hc1 x0 x1 x2 x3 xs0 = k0_pay3 x3 (k0_pay2 x0 x1 x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread,
    View.ld_unit_zero (S := S1x256x256) hz3, View.ld_unit_zero (S := S256x256) hz2,
    View.ld_unit_zero (S := S1x1024x256) hz3, View.ld_unit_zero (S := S1024x256) hz2, View.ld_unit_zero (S := S256) hz1,
    View.readCov_unit_zero (S := S1024x256) _ hz2]

/-- A graph's first tile: the zero block is stored and read back, so the scratch ends at zero + the tile product,
    whatever it held. -/
theorem scratch_A (hc0 : cond0_0 i) (hc1 : ¬cond0_1 i) :
    sout0_A_0 c i arg2 harg2 arg3 harg3 arg4 harg4 arg5 harg5 arg6 harg6 arg7 harg7 hc0 hc1 x0 x1 x2 x3 = k0_pay2 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x256) hz2, View.readCov_unit_zero (S := S1024x256) _ hz2]
  simp only [View.readAt_eq_ld, harg2.read_unread, harg3.read_unread, harg4.read_unread,
    View.ld_unit_zero (S := S1x256x256) hz3, View.ld_unit_zero (S := S256x256) hz2,
    View.ld_unit_zero (S := S1x1024x256) hz3, View.ld_unit_zero (S := S1024x256) hz2]

end Cert.KernelIdeal.Pieces

end
-- ==== Proof.PayAt.lean ====
/-
  The body's three stored values read at an index, on the extended reals.

  A change of float format is the identity there and a matrix product into a zero accumulator is the plain sum of
  products over the contracted axis, so:
    the reset block is 0 everywhere;
    the accumulator update at (n, o) is   acc[n, o] + Σ_{j < 256} adjTile[n, j] · (Σ_{i < 256} featTile[j, i] · W[i, o]);
    the output block at (n, o) is          acc[n, o] + bias[o].
  The blocks the pipeline hands the body carry a leading axis of extent one, which the body's shape casts drop and add;
  each of those is read at an index by comparing row-major positions.
-/
import proofs.«124375_j71811853189638_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayAt

open Cert.KernelIdeal Cert.KernelIdeal.Gen Idealize.ShloMosaic Idealize.ShloMosaic.ValueIdx

/-! ## The unit axis dropped and added, and the bias row repeated -/

/-- The adjacency block [1, 1024, 256] viewed [1024, 256]. -/
theorem cast_adj (x : Vec Ideal S1x1024x256 .f32) (z : Fin 1) (n : Fin 1024) (j : Fin 256) :
    shapeCast S1024x256 x shapeCasts_S1x1024x256_S1024x256 (ix2 n j) = x (ix3 z n j) :=
  shapeCast_apply x _ (ix2 n j) (ix3 z n j) (by
    rw [Shape.rowMajor_val_three, Shape.rowMajor_val_two]
    show (z.val * 1024 + n.val) * 256 + j.val = n.val * 256 + j.val
    have := z.isLt; omega)

/-- The feature block [1, 256, 256] viewed [256, 256]. -/
theorem cast_feat (x : Vec Ideal S1x256x256 .f32) (z : Fin 1) (j : Fin 256) (i : Fin 256) :
    shapeCast S256x256 x shapeCasts_S1x256x256_S256x256 (ix2 j i) = x (ix3 z j i) :=
  shapeCast_apply x _ (ix2 j i) (ix3 z j i) (by
    rw [Shape.rowMajor_val_three, Shape.rowMajor_val_two]
    show (z.val * 256 + j.val) * 256 + i.val = j.val * 256 + i.val
    have := z.isLt; omega)

/-- A [1024, 256] value stored as the [1, 1024, 256] output block. -/
theorem cast_out (v : Vec Ideal S1024x256 .f32) (z : Fin 1) (n : Fin 1024) (o : Fin 256) :
    shapeCast S1x1024x256 v shapeCasts_S1024x256_S1x1024x256 (ix3 z n o) = v (ix2 n o) :=
  shapeCast_apply v _ (ix3 z n o) (ix2 n o) (by
    rw [Shape.rowMajor_val_three, Shape.rowMajor_val_two]
    show n.val * 256 + o.val = (z.val * 1024 + n.val) * 256 + o.val
    have := z.isLt; omega)

/-- The bias [256] viewed as one row [1, 256]. -/
theorem cast_bias (v : Vec Ideal S256 .f32) (z : Fin 1) (o : Fin 256) :
    shapeCast S1x256 v shapeCasts_S256_S1x256 (ix2 z o) = v (ix1 o) :=
  shapeCast_apply v _ (ix2 z o) (ix1 o) (by
    rw [Shape.rowMajor_val_two, Shape.rowMajor_val_one]
    show o.val = z.val * 256 + o.val
    have := z.isLt; omega)

/-- That row repeated down the 1024 rows. -/
theorem bcast_bias (v : Vec Ideal S1x256 .f32) (n : Fin 1024) (o : Fin 256) :
    broadcastTo S1024x256 v broadcasts_S1x256_S1024x256 (ix2 n o) = v (ix2 (0 : Fin 1) o) :=
  broadcastTo_apply v _ (ix2 n o) (ix2 (0 : Fin 1) o) (fun a => match a with
    | ⟨0, _⟩ => by show 0 = if (1 : Nat) = 1 then 0 else _; rw [if_pos rfl]
    | ⟨1, _⟩ => by show o.val = if (256 : Nat) = 1 then 0 else o.val; rw [if_neg (by decide)])

/-! ## The two matrix products as sums over the contracted axis

Both contract the left operand's columns against the right operand's rows; the operand indices at an output index
and a contraction position are read off the dimension numbers axis by axis. -/

theorem lhs_sup_0 (i : S256x256.Idx) (q : dot_S256x256_S256x256_S256x256_1_0_0_1_n_n.contr.Idx) : (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_sup_1 (i : S256x256.Idx) (q : dot_S256x256_S256x256_S256x256_1_0_0_1_n_n.contr.Idx) : (dot_S256x256_S256x256_S256x256_1_0_0_1_n_n.lhsIdx i q 1).val = (q ⟨0, by decide⟩).val :=
  dot_S256x256_S256x256_S256x256_1_0_0_1_n_n.lhsIdx_val_of_single rfl i q
theorem rhs_sup_0 (i : S256x256.Idx) (q : dot_S256x256_S256x256_S256x256_1_0_0_1_n_n.contr.Idx) : (dot_S256x256_S256x256_S256x256_1_0_0_1_n_n.rhsIdx i q 0).val = (q ⟨0, by decide⟩).val :=
  dot_S256x256_S256x256_S256x256_1_0_0_1_n_n.rhsIdx_val_of_single rfl i q
theorem rhs_sup_1 (i : S256x256.Idx) (q : dot_S256x256_S256x256_S256x256_1_0_0_1_n_n.contr.Idx) : (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

theorem lhs_agg_0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_agg_1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rhs_agg_0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rhs_agg_1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The projected features of a tile's 256 source nodes: rows of the feature tile against columns of the weight. -/
theorem support_tile (a : FVec Ideal S256x256 .bf16) (w : FVec Ideal S256x256 .bf16) (r : Fin 256) (o : Fin 256) :
    matmul dot_S256x256_S256x256_S256x256_1_0_0_1_n_n none a w (constant (F := Ideal) S256x256 .f32 0x00000000#32) (ix2 r o)
      = ∑ k : Fin 256, a (ix2 r k) * w (ix2 k o) := by
  simp only [matmul]
  rw [Ideal.matmul_constant_zero_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 r o) ((ValueIdx.contrEquiv1 dot_S256x256_S256x256_S256x256_1_0_0_1_n_n 256 rfl rfl).symm k) = ix2 r k := funext fun a => Fin.ext (by
    match a with
    | ⟨0, _⟩ => exact lhs_sup_0 _ _
    | ⟨1, _⟩ => exact (lhs_sup_1 _ _).trans hk)
  have er : dot_S256x256_S256x256_S256x256_1_0_0_1_n_n.rhsIdx (ix2 r o) ((ValueIdx.contrEquiv1 dot_S256x256_S256x256_S256x256_1_0_0_1_n_n 256 rfl rfl).symm k) = ix2 k o := funext fun a => Fin.ext (by
    match a with
    | ⟨0, _⟩ => exact (rhs_sup_0 _ _).trans hk
    | ⟨1, _⟩ => exact rhs_sup_1 _ _)
  rw [el, er]

/-- A tile's aggregation: rows of the adjacency tile against columns of the tile's projected features. -/
theorem agg_tile (a : FVec Ideal S1024x256 .bf16) (w : FVec Ideal S256x256 .bf16) (r : Fin 1024) (o : Fin 256) :
    matmul dot_S1024x256_S256x256_S1024x256_1_0_0_1_n_n none a w (constant (F := Ideal) S1024x256 .f32 0x00000000#32) (ix2 r o)
      = ∑ k : Fin 256, a (ix2 r k) * w (ix2 k o) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r o) ((ValueIdx.contrEquiv1 dot_S1024x256_S256x256_S1024x256_1_0_0_1_n_n 256 rfl rfl).symm k) = ix2 r k := funext fun a => Fin.ext (by
    match a with
    | ⟨0, _⟩ => exact lhs_agg_0 _ _
    | ⟨1, _⟩ => exact (lhs_agg_1 _ _).trans hk)
  have er : dot_S1024x256_S256x256_S1024x256_1_0_0_1_n_n.rhsIdx (ix2 r o) ((ValueIdx.contrEquiv1 dot_S1024x256_S256x256_S1024x256_1_0_0_1_n_n 256 rfl rfl).symm k) = ix2 k o := funext fun a => Fin.ext (by
    match a with
    | ⟨0, _⟩ => exact (rhs_agg_0 _ _).trans hk
    | ⟨1, _⟩ => exact rhs_agg_1 _ _)
  rw [el, er]

/-! ## The three stored values at an index -/

/-- The reset block is zero. -/
theorem pay1_at (y : S1024x256.Idx) : k0_pay1 (F := Ideal) y = 0 := by
  unfold k0_pay1
  rw [shapeCast_self]
  show Ideal.ofBits .f32 0x00000000#32 = 0
  exact Ideal.ofBits_zero_f32

/-- The accumulator update: what the scratch held plus the tile's aggregation. -/
theorem pay2_at (x0 : Vec Ideal S1x256x256 .f32) (x1 : Vec Ideal S256x256 .f32) (x2 : Vec Ideal S1x1024x256 .f32)
    (acc : Vec Ideal S1024x256 .f32) (n : Fin 1024) (o : Fin 256) :
    k0_pay2 (F := Ideal) x0 x1 x2 acc (ix2 n o)
      = acc (ix2 n o) + ∑ j : Fin 256, x2 (ix3 (0 : Fin 1) n j) * ∑ i : Fin 256, x0 (ix3 (0 : Fin 1) j i) * x1 (ix2 i o) := by
  unfold k0_pay2
  rw [shapeCast_self]
  refine (addf_apply _ _ _).trans (congrArg (acc (ix2 n o) + ·) ?_)
  refine (agg_tile _ _ n o).trans (Finset.sum_congr rfl fun j _ => ?_)
  rw [truncf_apply, truncf_apply, cast_adj x2 0 n j, support_tile]
  refine congrArg (x2 (ix3 (0 : Fin 1) n j) * ·) (Finset.sum_congr rfl fun i _ => ?_)
  rw [truncf_apply, truncf_apply, cast_feat x0 0 j i]

/-- The output block: the accumulator plus the bias of the channel. -/
theorem pay3_at (x3 : Vec Ideal S256 .f32) (acc : Vec Ideal S1024x256 .f32) (z : Fin 1) (n : Fin 1024) (o : Fin 256) :
    k0_pay3 (F := Ideal) x3 acc (ix3 z n o) = acc (ix2 n o) + x3 (ix1 o) := by
  unfold k0_pay3
  refine (cast_out _ z n o).trans ?_
  refine (addf_apply _ _ _).trans (congrArg (acc (ix2 n o) + ·) ?_)
  rw [bcast_bias, cast_bias]

end Cert.KernelIdeal.PayAt

end
-- ==== Proof.Blocks.lean ====
/-
  What the pipeline hands the body at a grid point, in terms of the four whole arrays.

  The grid is 32 graphs × 4 tiles, row-major: point `t` works on graph `t / 4` and on the source nodes
  `256 · (t % 4) + j`, `j < 256`. At that point the feature block is those nodes' rows of the graph's features, the adjacency
  block is those nodes' COLUMNS of the graph's adjacency matrix (all 1024 rows), and weight and bias are whole. A block's
  coordinate in its array is always (block index) × (block extent) + (coordinate inside the block).
-/
import proofs.«124375_j71811853189638_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The four argument arrays on core `c`. -/
abbrev adjArr (c : Dev nD) : Vec F S32x1024x1024 .f32 := m ((c : Thread nD τ).loc main_arg0)
abbrev featArr (c : Dev nD) : Vec F S32x1024x256 .f32 := m ((c : Thread nD τ).loc main_arg1)
abbrev wArr (c : Dev nD) : Vec F S256x256 .f32 := m ((c : Thread nD τ).loc main_arg2)
abbrev biasArr (c : Dev nD) : Vec F S256 .f32 := m ((c : Thread nD τ).loc main_arg3)

theorem N128 : cfg0.N = 128 := N_0

/-- The graph point `t` works on. -/
def graphOf (t : Fin cfg0.N) : Fin 32 := ⟨t.val / 4, by have := t.isLt; have := N128; omega⟩
/-- The `j`-th source node of point `t`'s tile. -/
def nodeOf (t : Fin cfg0.N) (j : Fin 256) : Fin 1024 := ⟨256 * (t.val % 4) + j.val, by have := j.isLt; omega⟩

/-! ## The index maps over the grid, decided once -/

theorem idx_feat : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)
theorem idx_w : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_adj : ∀ t : Fin cfg0.N, win0_2.index t (0 : Fin 3) = t.val / 4 ∧ win0_2.index t (1 : Fin 3) = 0 ∧ win0_2.index t (2 : Fin 3) = t.val % 4 :=
  (by decide +kernel : ∀ t : Fin grid0.N, win0_2.index t (0 : Fin 3) = t.val / 4 ∧ win0_2.index t (1 : Fin 3) = 0 ∧ win0_2.index t (2 : Fin 3) = t.val % 4)
theorem idx_bias : ∀ t : Fin cfg0.N, win0_3.index t (0 : Fin 1) = 0 :=
  (by decide +kernel : ∀ t : Fin grid0.N, win0_3.index t (0 : Fin 1) = 0)
theorem idx_out : ∀ t : Fin cfg0.N, win0_4.index t (0 : Fin 3) = t.val / 4 ∧ win0_4.index t (1 : Fin 3) = 0 ∧ win0_4.index t (2 : Fin 3) = 0 :=
  (by decide +kernel : ∀ t : Fin grid0.N, win0_4.index t (0 : Fin 3) = t.val / 4 ∧ win0_4.index t (1 : Fin 3) = 0 ∧ win0_4.index t (2 : Fin 3) = 0)

/-! ## The input blocks at an index -/

/-- The feature block: the tile's 256 nodes' feature rows. -/
theorem feat_blk (c : Dev nD) (t : Fin cfg0.N) (z : Fin 1) (j i : Fin 256) :
    (iblk m c 0 t : Vec F S1x256x256 .f32) (ix3 z j i) = featArr m c (ix3 (graphOf t) (nodeOf t j) i) := by
  obtain ⟨h0, h1, h2⟩ := idx_feat t
  unfold iblk
  rw [View.read_apply]
  show V m c main_arg1 _ = m ((c : Thread nD τ).loc main_arg1) _
  congr 1
  funext a
  apply Fin.ext
  match a with
  | ⟨0, _⟩ => show win0_0.index t 0 * 1 + 1 * z.val = t.val / 4; rw [h0]; have := z.isLt; omega
  | ⟨1, _⟩ => show win0_0.index t 1 * 256 + 1 * j.val = 256 * (t.val % 4) + j.val; rw [h1]; omega
  | ⟨2, _⟩ => show win0_0.index t 2 * 256 + 1 * i.val = i.val; rw [h2]; omega

/-- The adjacency block: every row, the tile's 256 columns. -/
theorem adj_blk (c : Dev nD) (t : Fin cfg0.N) (z : Fin 1) (n : Fin 1024) (j : Fin 256) :
    (iblk m c 2 t : Vec F S1x1024x256 .f32) (ix3 z n j) = adjArr m c (ix3 (graphOf t) n (nodeOf t j)) := by
  obtain ⟨h0, h1, h2⟩ := idx_adj t
  unfold iblk
  rw [View.read_apply]
  show V m c main_arg0 _ = m ((c : Thread nD τ).loc main_arg0) _
  congr 1
  funext a
  apply Fin.ext
  match a with
  | ⟨0, _⟩ => show win0_2.index t 0 * 1 + 1 * z.val = t.val / 4; rw [h0]; have := z.isLt; omega
  | ⟨1, _⟩ => show win0_2.index t 1 * 1024 + 1 * n.val = n.val; rw [h1]; omega
  | ⟨2, _⟩ => show win0_2.index t 2 * 256 + 1 * j.val = 256 * (t.val % 4) + j.val; rw [h2]; omega

/-- The weight block is the whole weight. -/
theorem w_blk (c : Dev nD) (t : Fin cfg0.N) (i o : Fin 256) :
    (iblk m c 1 t : Vec F S256x256 .f32) (ix2 i o) = wArr m c (ix2 i o) := by
  obtain ⟨h0, h1⟩ := idx_w t
  unfold iblk
  rw [View.read_apply]
  show V m c main_arg2 _ = m ((c : Thread nD τ).loc main_arg2) _
  congr 1
  funext a
  apply Fin.ext
  match a with
  | ⟨0, _⟩ => show win0_1.index t 0 * 256 + 1 * i.val = i.val; rw [h0]; omega
  | ⟨1, _⟩ => show win0_1.index t 1 * 256 + 1 * o.val = o.val; rw [h1]; omega

/-- The bias block is the whole bias. -/
theorem bias_blk (c : Dev nD) (t : Fin cfg0.N) (o : Fin 256) :
    (iblk m c 3 t : Vec F S256 .f32) (ix1 o) = biasArr m c (ix1 o) := by
  have h0 := idx_bias t
  unfold iblk
  rw [View.read_apply]
  show V m c main_arg3 _ = m ((c : Thread nD τ).loc main_arg3) _
  congr 1
  funext a
  apply Fin.ext
  match a with
  | ⟨0, _⟩ => show win0_3.index t 0 * 256 + 1 * o.val = o.val; rw [h0]; omega

end Cert.KernelIdeal.Blocks

end
-- ==== Proof.TileSum.lean ====
/-
  A sum over a range cut into equal tiles. Adding the tiles' sums one after the other, in order, gives the sum over the
  whole range: only associativity of the addition is used, so the statement holds in every commutative additive monoid,
  in particular on the extended reals, infinities included.
-/
import Idealize.ShloMosaic.Lib.ValueIdx

namespace Cert.Tiles

open Finset

variable {M : Type*} [AddCommMonoid M]

/-- `n` consecutive tiles of width `K`: tile `s` holds the naturals `K * s + j`, `j < K`; the tile sums added up are the
    sum over the first `K * n` naturals. By induction on the number of tiles: one more tile extends the range by `K`. -/
theorem sum_range_tiles (K : ℕ) (g : ℕ → M) (n : ℕ) :
    ∑ s ∈ range n, ∑ j ∈ range K, g (K * s + j) = ∑ x ∈ range (K * n), g x := by
  induction n with
  | zero => simp
  | succ n ih => rw [sum_range_succ, ih, Nat.mul_succ, sum_range_add]

/-- The same with each tile, and the whole range, indexed by `Fin`. -/
theorem sum_fin_tiles (K n : ℕ) (g : ℕ → M) :
    ∑ s ∈ range n, ∑ j : Fin K, g (K * s + j.val) = ∑ x : Fin (K * n), g x.val := by
  rw [Fin.sum_univ_eq_sum_range g (K * n), ← sum_range_tiles K g n]
  exact sum_congr rfl fun s _ => Fin.sum_univ_eq_sum_range (fun j => g (K * s + j)) K

end Cert.Tiles
-- ==== Proof.Spec.lean ====
/-
  What the graph convolution computes, as ONE function of its four arrays, index by index on the extended reals:

      out[b, n, o] = (Σ_{m < 1024} adj[b, n, m] · support[b, m, o]) + bias[o],   support[b, m, o] = Σ_{i < 256} feat[b, m, i] · W[i, o].

  The kernel adds the aggregation up in four tiles of 256 source nodes, one tile per grid point; the reference sums the
  1024 source nodes at once. The two agree because a sum may be cut into consecutive tiles (`sum_term_tiles`), which
  needs nothing of the summands: no finiteness enters.
-/
import Idealize.ShloMosaic.Lib.ValueIdx
import proofs.«124375_j71811853189638_1_alg».proof.Proof.TileSum

noncomputable section

namespace Cert.Spec

open Idealize.ShloMosaic Idealize.ShloMosaic.ValueIdx Finset

abbrev SAdj : Shape := ⟨3, ![32, 1024, 1024]⟩
abbrev SFeat : Shape := ⟨3, ![32, 1024, 256]⟩
abbrev SW : Shape := ⟨2, ![256, 256]⟩
abbrev SBias : Shape := ⟨1, ![256]⟩
abbrev SOut : Shape := ⟨3, ![32, 1024, 256]⟩

variable (adj : SAdj.Idx → EReal) (feat : SFeat.Idx → EReal) (W : SW.Idx → EReal) (bias : SBias.Idx → EReal)

/-- The projected features of node `m` of graph `b`, output channel `o`. -/
def support (b : Fin 32) (m : Fin 1024) (o : Fin 256) : EReal :=
  ∑ i : Fin 256, feat (ix3 b m i) * W (ix2 i o)

/-- What source node `m` contributes to node `n` of graph `b`, channel `o`. -/
def term (b : Fin 32) (n : Fin 1024) (o : Fin 256) (m : Fin 1024) : EReal :=
  adj (ix3 b n m) * support feat W b m o

/-- The same contribution with the source node a natural number, zero past the last node: the form in which the
    contributions of a tile `256 * s + j` are added up. -/
def termN (b : Fin 32) (n : Fin 1024) (o : Fin 256) (x : ℕ) : EReal :=
  if h : x < 1024 then term adj feat W b n o ⟨x, h⟩ else 0

theorem termN_of_lt (b : Fin 32) (n : Fin 1024) (o : Fin 256) (x : ℕ) (h : x < 1024) :
    termN adj feat W b n o x = term adj feat W b n o ⟨x, h⟩ := dif_pos h

/-- The result at graph `b`, node `n`, channel `o`. -/
def outAt (b : Fin 32) (n : Fin 1024) (o : Fin 256) : EReal :=
  (∑ m : Fin 1024, term adj feat W b n o m) + bias (ix1 o)

/-- The whole result array. -/
def out : SOut.Idx → EReal := fun i => outAt adj feat W bias (i 0) (i 1) (i 2)

/-- Four tiles of 256 source nodes, added one after the other, are the sum over all 1024. -/
theorem sum_term_tiles (b : Fin 32) (n : Fin 1024) (o : Fin 256) :
    ∑ s ∈ range 4, ∑ j : Fin 256, termN adj feat W b n o (256 * s + j.val) = ∑ m : Fin 1024, term adj feat W b n o m := by
  have h := Cert.Tiles.sum_fin_tiles 256 4 (termN adj feat W b n o)
  rw [h]
  exact Finset.sum_congr rfl fun m _ => termN_of_lt adj feat W b n o m.val m.isLt

end Cert.Spec

end
-- ==== Proof.Accum.lean ====
/-
  The accumulator after every grid point, on the extended reals.

  Point `n` adds to the accumulator, at (r, o), the contributions of its tile's 256 source nodes to node `r` of its graph,
  channel `o` (`addend`). A graph's first point starts from the zero block, so after the point at offset `k` of a graph's
  run of four the accumulator is  0 + (the addends of the run's points up to it), added in order: the fold of the run,
  unrolled by the library's lemma on folds whose steps add.
-/
import proofs.«124375_j71811853189638_1_alg».proof.Proof.Gen.KernelIdeal.Value
import proofs.«124375_j71811853189638_1_alg».proof.Proof.Pieces
import proofs.«124375_j71811853189638_1_alg».proof.Proof.PayAt
import proofs.«124375_j71811853189638_1_alg».proof.Proof.Blocks
import proofs.«124375_j71811853189638_1_alg».proof.Proof.Spec

noncomputable section

namespace Cert.KernelIdeal.Accum

open Cert.KernelIdeal Cert.KernelIdeal.Gen Cert.KernelIdeal.Value Cert.KernelIdeal.Blocks
open Idealize.ShloMosaic Idealize.ShloMosaic.TcCoe Idealize.ShloMosaic.ValueIdx Idealize.SL.Sem

variable (m : (ℓ : Loc nD τ sig) → Buf (Elt Ideal) ℓ)

/-- The input blocks of point `t`, at their literal types. -/
abbrev featBlk (c : Dev nD) (t : Fin cfg0.N) : Vec Ideal S1x256x256 .f32 := iblk m c 0 t
abbrev wBlk (c : Dev nD) (t : Fin cfg0.N) : Vec Ideal S256x256 .f32 := iblk m c 1 t
abbrev adjBlk (c : Dev nD) (t : Fin cfg0.N) : Vec Ideal S1x1024x256 .f32 := iblk m c 2 t
abbrev biasBlk (c : Dev nD) (t : Fin cfg0.N) : Vec Ideal S256 .f32 := iblk m c 3 t

theorem featBlk_at (c : Dev nD) (t : Fin cfg0.N) (z : Fin 1) (j i : Fin 256) :
    featBlk m c t (ix3 z j i) = featArr m c (ix3 (graphOf t) (nodeOf t j) i) := feat_blk m c t z j i
theorem adjBlk_at (c : Dev nD) (t : Fin cfg0.N) (z : Fin 1) (n : Fin 1024) (j : Fin 256) :
    adjBlk m c t (ix3 z n j) = adjArr m c (ix3 (graphOf t) n (nodeOf t j)) := adj_blk m c t z n j
theorem wBlk_at (c : Dev nD) (t : Fin cfg0.N) (i o : Fin 256) :
    wBlk m c t (ix2 i o) = wArr m c (ix2 i o) := w_blk m c t i o
theorem biasBlk_at (c : Dev nD) (t : Fin cfg0.N) (o : Fin 256) :
    biasBlk m c t (ix1 o) = biasArr m c (ix1 o) := bias_blk m c t o

/-- What point `n` adds at (r, o): the contributions of its tile's source nodes `256 · (n % 4) + j` in graph `n / 4`
    (zero past the grid, where no point is). -/
def addend (c : Dev nD) (n : ℕ) (y : S1024x256.Idx) : EReal :=
  if h : n < cfg0.N then
    ∑ j : Fin 256, Cert.Spec.termN (adjArr m c) (featArr m c) (wArr m c) (graphOf ⟨n, h⟩) (y 0) (y 1) (256 * (n % 4) + j.val)
  else 0

/-- One point's update of the accumulator, at an index: what it held plus the point's addend. -/
theorem step (c : Dev nD) (t : Fin cfg0.N) (acc : Vec Ideal S1024x256 .f32) (y : S1024x256.Idx) :
    k0_pay2 (F := Ideal) (featBlk m c t) (wBlk m c t) (adjBlk m c t) acc y = acc y + addend m c t.val y := by
  obtain ⟨r, o, rfl⟩ : ∃ (r : Fin 1024) (o : Fin 256), y = ix2 r o := ⟨y 0, y 1, eq_ix2 y⟩
  refine (Cert.KernelIdeal.PayAt.pay2_at (featBlk m c t) (wBlk m c t) (adjBlk m c t) acc r o).trans ?_
  refine congrArg (acc (ix2 r o) + ·) ?_
  unfold addend
  rw [dif_pos t.isLt]
  refine Finset.sum_congr rfl fun j _ => ?_
  rw [Cert.Spec.termN_of_lt _ _ _ _ _ _ _ (by have := j.isLt; omega)]
  unfold Cert.Spec.term Cert.Spec.support
  rw [adjBlk_at]
  refine congrArg (adjArr m c (ix3 (graphOf t) r (nodeOf t j)) * ·) (Finset.sum_congr rfl fun i _ => ?_)
  rw [featBlk_at, wBlk_at]
  rfl

/-- THE ACCUMULATOR AFTER POINT `t`: zero plus the addends of its graph's points up to `t`, in order. The graph's run
    starts at point `4 · (t / 4)`, which stores the zero block and adds its own tile; each later point of the run adds its
    tile to what the point before left. -/
theorem scratch_after (c : Dev nD) (t : Fin cfg0.N) (y : S1024x256.Idx) :
    (outsAt0 m c t.val t.isLt).2 y
      = 0 + ∑ s ∈ Finset.range (t.val % 4 + 1), addend m c (4 * (t.val / 4) + s) y := by
  rw [soutsAt0_0_eq m c t]
  refine Pipeline.accAt_add_apply (β := EReal) _ _ (fun _ => 0) (addend m c) (4 * (t.val / 4)) 3 ?_ ?_ (t.val % 4) (by omega) _ y
  · -- the run's first point
    intro h y
    have h0 : (4 * (t.val / 4)) % 4 = 0 := by omega
    have h1 : ¬(4 * (t.val / 4)) % 4 = 3 := by omega
    show scAt0_0 m c (4 * (t.val / 4)) h (VS0_0.read (Elt Ideal) VS0_0.junk) y = _
    unfold scAt0_0
    rw [dif_pos h0, dif_neg h1]
    refine (congrFun (Cert.KernelIdeal.Pieces.scratch_A c (grid0.coords (⟨4 * (t.val / 4), h⟩ : Fin cfg0.N)) (ms0_0 (⟨4 * (t.val / 4), h⟩ : Fin cfg0.N)) (hs0_0 (⟨4 * (t.val / 4), h⟩ : Fin cfg0.N)) (ms0_1 (⟨4 * (t.val / 4), h⟩ : Fin cfg0.N)) (hs0_1 (⟨4 * (t.val / 4), h⟩ : Fin cfg0.N)) (ms0_2 (⟨4 * (t.val / 4), h⟩ : Fin cfg0.N)) (hs0_2 (⟨4 * (t.val / 4), h⟩ : Fin cfg0.N)) (ms0_3 (⟨4 * (t.val / 4), h⟩ : Fin cfg0.N)) (hs0_3 (⟨4 * (t.val / 4), h⟩ : Fin cfg0.N)) (ms0_4 (⟨4 * (t.val / 4), h⟩ : Fin cfg0.N)) (hs0_4 (⟨4 * (t.val / 4), h⟩ : Fin cfg0.N)) scM0_0 (Memref.isWhole_whole _) (featBlk m c (⟨4 * (t.val / 4), h⟩ : Fin cfg0.N)) (wBlk m c (⟨4 * (t.val / 4), h⟩ : Fin cfg0.N)) (adjBlk m c (⟨4 * (t.val / 4), h⟩ : Fin cfg0.N)) (biasBlk m c (⟨4 * (t.val / 4), h⟩ : Fin cfg0.N))
      ((hcond0_0 (⟨4 * (t.val / 4), h⟩ : Fin cfg0.N)).mpr h0) (fun hh => h1 ((hcond0_1 (⟨4 * (t.val / 4), h⟩ : Fin cfg0.N)).mp hh))) y).trans ?_
    refine (step m c (⟨4 * (t.val / 4), h⟩ : Fin cfg0.N) _ y).trans ?_
    rw [Cert.KernelIdeal.PayAt.pay1_at]
  · -- a later point of the run
    intro n h acc y hb he
    have h0 : ¬n % 4 = 0 := by omega
    show scAt0_0 m c n h acc y = _
    unfold scAt0_0
    rw [dif_neg h0]
    by_cases h1 : n % 4 = 3
    · rw [dif_pos h1]
      refine (congrFun (Cert.KernelIdeal.Pieces.scratch_C c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (featBlk m c (⟨n, h⟩ : Fin cfg0.N)) (wBlk m c (⟨n, h⟩ : Fin cfg0.N)) (adjBlk m c (⟨n, h⟩ : Fin cfg0.N)) (biasBlk m c (⟨n, h⟩ : Fin cfg0.N))
        (fun hh => h0 ((hcond0_0 (⟨n, h⟩ : Fin cfg0.N)).mp hh)) ((hcond0_1 (⟨n, h⟩ : Fin cfg0.N)).mpr h1) acc) y).trans ?_
      exact step m c (⟨n, h⟩ : Fin cfg0.N) acc y
    · rw [dif_neg h1]
      refine (congrFun (Cert.KernelIdeal.Pieces.scratch_B c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (featBlk m c (⟨n, h⟩ : Fin cfg0.N)) (wBlk m c (⟨n, h⟩ : Fin cfg0.N)) (adjBlk m c (⟨n, h⟩ : Fin cfg0.N)) (biasBlk m c (⟨n, h⟩ : Fin cfg0.N))
        (fun hh => h0 ((hcond0_0 (⟨n, h⟩ : Fin cfg0.N)).mp hh)) (fun hh => h1 ((hcond0_1 (⟨n, h⟩ : Fin cfg0.N)).mp hh)) acc) y).trans ?_
      exact step m c (⟨n, h⟩ : Fin cfg0.N) acc y

end Cert.KernelIdeal.Accum

end
-- ==== Proof.Final.lean ====
/-
  The result array after the kernel's run.

  The output window's block at point `t` is graph `t / 4`'s whole [1024, 256] slab, and it is written back only at a graph's
  last tile (`t % 4 = 3`). There the body stores accumulator + bias, and the accumulator holds zero plus the four tiles'
  addends of the graph, which is the sum over all 1024 source nodes: so what that point writes back is the graph's slab of
  the function `Cert.Spec.out` of the four arrays. Every index (b, n, o) lies in the block of the flushing point `4·b + 3`,
  so the array ends holding that function everywhere.
-/
import proofs.«124375_j71811853189638_1_alg».proof.Proof.Accum

noncomputable section

namespace Cert.KernelIdeal.Final

open Cert.KernelIdeal Cert.KernelIdeal.Gen Cert.KernelIdeal.Value Cert.KernelIdeal.Blocks Cert.KernelIdeal.Accum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the result array holds on core `c`: the graph convolution of the core's four arrays. -/
abbrev result (c : Dev nD) : Vec Ideal S32x1024x256 .f32 :=
  Cert.Spec.out (adjArr m c) (featArr m c) (wArr m c) (biasArr m c)

/-- At a graph's last tile the run's four addends are the sum over all of the graph's source nodes. -/
theorem run_sum (c : Dev nD) (t : Fin cfg0.N) (h1 : t.val % 4 = 3) (r : Fin 1024) (o : Fin 256) :
    ∑ s ∈ Finset.range (t.val % 4 + 1), addend m c (4 * (t.val / 4) + s) (ix2 r o)
      = ∑ x : Fin 1024, Cert.Spec.term (adjArr m c) (featArr m c) (wArr m c) (graphOf t) r o x := by
  rw [h1, ← Cert.Spec.sum_term_tiles]
  refine Finset.sum_congr rfl fun s hs => ?_
  have hs4 : s < 4 := Finset.mem_range.mp hs
  have hN : 4 * (t.val / 4) + s < cfg0.N := by have := t.isLt; omega
  have e1 : (4 * (t.val / 4) + s) % 4 = s := by omega
  have e2 : graphOf ⟨4 * (t.val / 4) + s, hN⟩ = graphOf t :=
    Fin.ext (by show (4 * (t.val / 4) + s) / 4 = t.val / 4; omega)
  unfold addend
  rw [dif_pos hN, e1, e2]

/-- At a graph's last tile the output buffer is (the accumulator the point leaves) + bias. -/
theorem out_block (c : Dev nD) (t : Fin cfg0.N) (h0 : ¬t.val % 4 = 0) (h1 : t.val % 4 = 3) :
    (outsAt0 m c t.val t.isLt).1 = k0_pay3 (F := Ideal) (biasBlk m c t) ((outsAt0 m c t.val t.isLt).2) := by
  rw [outsAt0_C m c t h0 h1]
  dsimp only
  exact (Cert.KernelIdeal.Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (featBlk m c t) (wBlk m c t) (adjBlk m c t) (biasBlk m c t) (fun hh => h0 ((hcond0_0 t).mp hh)) ((hcond0_1 t).mpr h1) (outsAt0 m c (t.val - 1) (Nat.lt_of_le_of_lt (Nat.sub_le _ _) t.isLt)).2).trans
    (congrArg (k0_pay3 (F := Ideal) (biasBlk m c t))
      (Cert.KernelIdeal.Pieces.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (featBlk m c t) (wBlk m c t) (adjBlk m c t) (biasBlk m c t) (fun hh => h0 ((hcond0_0 t).mp hh)) ((hcond0_1 t).mpr h1) (outsAt0 m c (t.val - 1) (Nat.lt_of_le_of_lt (Nat.sub_le _ _) t.isLt)).2).symm)

/-- WHAT A FLUSHING POINT WRITES BACK is its block of `result`. -/
theorem flushed_eq (c : Dev nD) (t : Fin cfg0.N) (hf : (cfg0.win 4).flush t = true) :
    (dats m 0 c).flushed 4 t = ((cfg0.win 4).blk t).view.read (Elt Ideal) (result m c) := by
  have h1 : t.val % 4 = 3 := (flush0_4 t).mp hf
  have h0 : ¬t.val % 4 = 0 := by omega
  obtain ⟨e0, e1, e2⟩ := idx_out t
  rw [flushed4 m c t]
  funext j
  show (outsAt0 m c t.val t.isLt).1 j = result m c (((cfg0.win 4).blk t).view.emb j)
  obtain ⟨z, r, o, rfl⟩ : ∃ (z : Fin 1) (r : Fin 1024) (o : Fin 256), j = ix3 z r o := ⟨j 0, j 1, j 2, eq_ix3 j⟩
  have hemb : ((cfg0.win 4).blk t).view.emb (ix3 z r o) = ix3 (graphOf t) r o := by
    funext a; apply Fin.ext
    match a with
    | ⟨0, _⟩ => show win0_4.index t 0 * 1 + 1 * z.val = t.val / 4; rw [e0]; have := z.isLt; omega
    | ⟨1, _⟩ => show win0_4.index t 1 * 1024 + 1 * r.val = r.val; rw [e1]; omega
    | ⟨2, _⟩ => show win0_4.index t 2 * 256 + 1 * o.val = o.val; rw [e2]; omega
  rw [hemb, out_block m c t h0 h1]
  refine (Cert.KernelIdeal.PayAt.pay3_at (biasBlk m c t) _ z r o).trans ?_
  rw [scratch_after m c t (ix2 r o), zero_add, run_sum m c t h1 r o, biasBlk_at]
  rfl

/-- An index of the array is in point `t`'s block iff each coordinate is in the block's range on its axis. -/
theorem mem_blk (t : Fin cfg0.N) (i : S32x1024x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v0).slice (win0_4.rect t)).set ↔ _
  rw [View.set_slice_whole, Rect.mem_set_unit]
  exact Iff.rfl

/-- Every index (b, n, o) is in the block of the flushing point `4·b + 3`. -/
theorem cover (i : S32x1024x256.Idx) : ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 256 := (i 2).isLt
  have hN := N128
  have hN' : grid0.N = 128 := N_0
  obtain ⟨t, ht⟩ : ∃ t : Fin cfg0.N, t.val = 4 * (i 0).val + 3 := ⟨⟨4 * (i 0).val + 3, by omega⟩, rfl⟩
  refine ⟨t, (flush0_4 t).mpr (by omega), ?_⟩
  obtain ⟨e0, e1, e2⟩ := idx_out t
  rw [mem_blk]
  intro a
  match a with
  | ⟨0, _⟩ => show win0_4.index t 0 * 1 ≤ (i 0).val ∧ (i 0).val < win0_4.index t 0 * 1 + 1; rw [e0]; omega
  | ⟨1, _⟩ => show win0_4.index t 1 * 1024 ≤ (i 1).val ∧ (i 1).val < win0_4.index t 1 * 1024 + 1024; rw [e1]; omega
  | ⟨2, _⟩ => show win0_4.index t 2 * 256 ≤ (i 2).val ∧ (i 2).val < win0_4.index t 2 * 256 + 256; rw [e2]; omega

/-- THE ARRAY after the run. -/
theorem final (c : Dev nD) : (dats m 0 c).arrAt 4 cfg0.N = result m c :=
  (dats m 0 c).arrAt_eq_of_cover 4 (result m c) (flushed_eq m c) cover

/-- The kernel's run: the result array at `result`, the four arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.RefSide.lean ====
/-
  The reference computes the same function.

  Its program is two contractions, two broadcasts of the bias and one addition. Read at an index (b, n, o), the second
  contraction sums over the 1024 source nodes `k` the adjacency entry (b, n, k) times the first contraction's entry
  (b, k, o), which sums over the 256 input channels `q` the feature (b, k, q) times the weight (q, o); the broadcasts read
  the bias at `o`. That is `Cert.Spec.out` of the four arguments, term for term.
-/
import proofs.«124375_j71811853189638_1_alg».proof.Proof.Gen.ReferenceIdeal.Read
import proofs.«124375_j71811853189638_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage, at the extended reals, is the graph convolution of its four arguments. -/
theorem stage_eq (x0 : (⟨S32x1024x1024, .f32⟩ : BufTy).Contents (Elt Ideal)) (x1 : (⟨S32x1024x256, .f32⟩ : BufTy).Contents (Elt Ideal))
    (x2 : (⟨S256x256, .f32⟩ : BufTy).Contents (Elt Ideal)) (x3 : (⟨S256, .f32⟩ : BufTy).Contents (Elt Ideal)) :
    val_main_v4 (F := Ideal) x0 x1 x2 x3 = Cert.Spec.out x0 x1 x2 x3 := by
  funext i
  obtain ⟨b, n, o, rfl⟩ : ∃ (b : Fin 32) (n : Fin 1024) (o : Fin 256), i = ix3 b n o := ⟨i 0, i 1, i 2, eq_ix3 i⟩
  have eb : idx_main_v2 (idx_main_v3 (ix3 b n o)) = ix1 o :=
    funext fun a => Fin.ext (by match a with | ⟨0, _⟩ => rfl)
  have el : ∀ k : Fin 1024, lidx_main_v1 (ix3 b n o) k = ix3 b n k := fun k =>
    funext fun a => Fin.ext (by match a with | ⟨0, _⟩ => rfl | ⟨1, _⟩ => rfl | ⟨2, _⟩ => rfl)
  have er : ∀ k : Fin 1024, ridx_main_v1 (ix3 b n o) k = ix3 b k o := fun k =>
    funext fun a => Fin.ext (by match a with | ⟨0, _⟩ => rfl | ⟨1, _⟩ => rfl | ⟨2, _⟩ => rfl)
  have el0 : ∀ (k : Fin 1024) (q : Fin 256), lidx_main_v0 (ix3 b k o) q = ix3 b k q := fun k q =>
    funext fun a => Fin.ext (by match a with | ⟨0, _⟩ => rfl | ⟨1, _⟩ => rfl | ⟨2, _⟩ => rfl)
  have er0 : ∀ (k : Fin 1024) (q : Fin 256), ridx_main_v0 (ix3 b k o) q = ix2 q o := fun k q =>
    funext fun a => Fin.ext (by match a with | ⟨0, _⟩ => rfl | ⟨1, _⟩ => rfl)
  rw [val_main_v4_apply, val_main_v1_apply, val_main_v3_apply, val_main_v2_apply]
  simp only [el, er, eb, val_main_v0_apply, el0, er0]
  rfl

end Cert.ReferenceIdeal.RefValue

end
-- ==== Proof.lean ====
/-
  A graph convolution layer, `out = adjacency · (features · weight) + bias` over 32 graphs of 1024 nodes, 256 input and
  256 output channels, as a fused pipelined kernel against the plain two-contraction reference.

  The kernel walks a grid of 32 graphs × 4 tiles of 256 source nodes. At each point it projects the tile's features through
  the weight, multiplies the graph's adjacency columns of that tile with the projection, and adds the product into an
  accumulator it keeps across the graph's four points (zeroed at the first, read out with the bias added at the last). Its
  operands are narrowed to a shorter float format before each product; on the extended reals a change of format is the
  identity and a product into a zero accumulator is the plain sum of products, so the kernel's result at (b, n, o) is

      ((((0 + T₀) + T₁) + T₂) + T₃) + bias[o],     T_s = Σ_{j < 256} adj[b, n, 256 s + j] · (Σ_{i < 256} feat[b, 256 s + j, i] · W[i, o]),

  while the reference's is  (Σ_{m < 1024} adj[b, n, m] · (Σ_{i < 256} feat[b, m, i] · W[i, o])) + bias[o].  The two are equal
  because a sum over 1024 consecutive indices is the sum of its four consecutive tiles of 256 added in order: associativity
  of addition only, which holds on the extended reals with their infinities, so the finiteness of the inputs is never used.
  The idealization rewrote nothing, so its soundness claim is trivially true; the kernels' frames are the generated ones and
  the reference's frame is its run with the result dropped.
-/
import proofs.«124375_j71811853189638_1_alg».proof.Defs
import proofs.«124375_j71811853189638_1_alg».proof.Proof.Gen.Kernel
import proofs.«124375_j71811853189638_1_alg».proof.Proof.Gen.Kernel.Skeleton
import proofs.«124375_j71811853189638_1_alg».proof.Proof.Gen.Kernel.Launch
import proofs.«124375_j71811853189638_1_alg».proof.Proof.Gen.Kernel.Points
import proofs.«124375_j71811853189638_1_alg».proof.Proof.Gen.Kernel.Frame
import proofs.«124375_j71811853189638_1_alg».proof.Proof.Gen.KernelIdeal
import proofs.«124375_j71811853189638_1_alg».proof.Proof.Gen.KernelIdeal.Skeleton
import proofs.«124375_j71811853189638_1_alg».proof.Proof.Gen.KernelIdeal.Launch
import proofs.«124375_j71811853189638_1_alg».proof.Proof.Gen.KernelIdeal.Points
import proofs.«124375_j71811853189638_1_alg».proof.Proof.Gen.KernelIdeal.Frame
import proofs.«124375_j71811853189638_1_alg».proof.Proof.Gen.ReferenceIdeal
import proofs.«124375_j71811853189638_1_alg».proof.Proof.Gen.Pre_finite_inputs
import proofs.«124375_j71811853189638_1_alg».proof.Proof.Gen.KernelIdeal.Value
import proofs.«124375_j71811853189638_1_alg».proof.Proof.Gen.ReferenceIdeal.Run
import proofs.«124375_j71811853189638_1_alg».proof.Proof.Gen.ReferenceIdeal.Read
import proofs.«124375_j71811853189638_1_alg».proof.Proof.Final
import proofs.«124375_j71811853189638_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the graph convolution of the (agreeing) arguments in their result arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.stage_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
